-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024 .f32) (main_arg3 : FVec F S16x1024 .f32) (main_arg4 : FVec F S1024x16 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S16384x1024 : Shape := ⟨2, ![16384, 1024]⟩
abbrev S_ : Shape := ⟨0, ![]⟩
abbrev S1x1024 : Shape := ⟨2, ![1, 1024]⟩

abbrev nBuf : Space → Nat
  | .hbm => 16
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S16384x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S16384x1024, .f32⟩
  | .hbm, ⟨15, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x1024_S16384x1024 : S4x4096x1024.ShapeCasts S16384x1024
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x1024_S4x4096x1024 : S16384x1024.ShapeCasts S4x4096x1024
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1x1024 : Shape := ⟨3, ![1, 1, 1024]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S4x4096x1024, .f32⟩
  | .hbm, ⟨6, _⟩ => ⟨S1x1x1024, .f32⟩
  | .hbm, ⟨7, _⟩ => ⟨S4x4096x1024, .f32⟩
  | .hbm, ⟨8, _⟩ => ⟨S4x4096x1024, .f32⟩
  | .hbm, ⟨9, _⟩ => ⟨S4x4096x16, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S16x1024_S4x4096x16_2_1_01_0_n_n_wf : DotDims.WF S4x4096x1024 S16x1024 S4x4096x16 [2] [1] [0, 1] [0] [] []
  dot_S4x4096x16_S1024x16_S4x4096x1024_2_1_01_0_n_n_wf : DotDims.WF S4x4096x16 S1024x16 S4x4096x1024 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf
def dot_S4x4096x16_S1024x16_S4x4096x1024_2_1_01_0_n_n : DotDims S4x4096x16 S1024x16 S4x4096x1024 where
  lhsContracting := [2]
  rhsContracting := [1]
  lhsNonContracting := [0, 1]
  rhsNonContracting := [0]
  lhsBatch := []
  rhsBatch := []
  wf := dot_S4x4096x16_S1024x16_S4x4096x1024_2_1_01_0_n_n_wf

class Facts : Prop extends Facts₀ where

variable [Facts]
-- ==== Proof.KernelEntry.lean ====
/-
  The three arrays the kernel's one region finds, as the host operations before it leave them, read index by index.
  The rows operand is `x` reshaped to [16384, 1024]: row `p · 4096 + s` is `x[p, s, ·]`. The weight operand is the
  folded weight transposed, `(W + t · (B · A))ᵀ` rounded to bf16 (the identity on the extended reals), with `t` the
  word of `2.0`: at `(d, o)` it is `W[o,d] + t · ∑ r, B[o,r] · A[r,d]`. The bias operand is `b` as one row.
-/
import proofs.«171128_j70360154243567_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.LowRankFold.Kernel

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## The arguments as launched, each at its literal type -/

/-- `x : [4, 4096, 1024]`. -/
abbrev argX (c : Dev nD) : FVec Ideal S4x4096x1024 .f32 := m ((c : Thread nD τ).loc main_arg0)
/-- `W : [1024, 1024]`, output feature by input feature. -/
abbrev argW (c : Dev nD) : FVec Ideal S1024x1024 .f32 := m ((c : Thread nD τ).loc main_arg1)
/-- `b : [1024]`. -/
abbrev argBias (c : Dev nD) : FVec Ideal S1024 .f32 := m ((c : Thread nD τ).loc main_arg2)
/-- `A : [16, 1024]`. -/
abbrev argA (c : Dev nD) : FVec Ideal S16x1024 .f32 := m ((c : Thread nD τ).loc main_arg3)
/-- `B : [1024, 16]`. -/
abbrev argB (c : Dev nD) : FVec Ideal S1024x16 .f32 := m ((c : Thread nD τ).loc main_arg4)

/-! ## The product `B · A` read at an index -/

/-- The product keeps `B`'s row: the left operand's first coordinate is the output's. -/
theorem lhs_ba_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- The left operand's second coordinate is the rank index. -/
theorem lhs_ba_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
/-- The right operand's first coordinate is the rank index. -/
theorem rhs_ba_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
/-- The right operand's second coordinate is the output's column. -/
theorem rhs_ba_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- `(B · A)[o, d] = ∑ r, B[o, r] · A[r, d]`. -/
theorem product_BA_apply (B : FVec Ideal S1024x16 .f32) (A : FVec Ideal S16x1024 .f32) (o d : Fin 1024) :
    Host.dotGeneral dot_S1024x16_S16x1024_S1024x1024_1_0_0_1_n_n none B A (ix2 o d) = ∑ r : Fin 16, B (ix2 o r) * A (ix2 r d) := by
  simp only [Host.dotGeneral]
  rw [Ideal.dotGeneral_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 o d) ((contrEquiv1 dot_S1024x16_S16x1024_S1024x1024_1_0_0_1_n_n 16 rfl rfl).symm k) = ix2 o k := funext fun a => Fin.ext (by
    match a with
    | ⟨0, _⟩ => exact lhs_ba_0 _ _
    | ⟨1, _⟩ => exact (lhs_ba_1 _ _).trans hk)
  have er : dot_S1024x16_S16x1024_S1024x1024_1_0_0_1_n_n.rhsIdx (ix2 o d) ((contrEquiv1 dot_S1024x16_S16x1024_S1024x1024_1_0_0_1_n_n 16 rfl rfl).symm k) = ix2 k d := funext fun a => Fin.ext (by
    match a with
    | ⟨0, _⟩ => exact (rhs_ba_0 _ _).trans hk
    | ⟨1, _⟩ => exact rhs_ba_1 _ _)
  rw [el, er]

/-! ## The rows operand -/

/-- The region finds `x` reshaped to [16384, 1024]. -/
theorem entry_rows (c : Dev nD) :
    V m c main_v0 = shapeCast S16384x1024 (argX m c) shapeCasts_S4x4096x1024_S16384x1024 := by
  show StableHlo.after hostOps0 (fun b => m (c, b)) (Proc.devRef .tc main_v0) = _
  after_results <;> rfl

/-- Row `r = p · 4096 + s` of the reshaped array is `x[p, s, ·]`: the two have the same row-major position. -/
theorem entry_rows_apply (c : Dev nD) (p : Fin 4) (s : Fin 4096) (k : Fin 1024) (r : Fin 16384) (hr : r.val = p.val * 4096 + s.val) :
    V m c main_v0 (ix2 r k) = argX m c (ix3 p s k) := by
  rw [entry_rows]
  refine shapeCast_apply _ _ _ (ix3 p s k) ?_
  rw [Shape.rowMajor_val_three, Shape.rowMajor_val_two]
  show (p.val * 4096 + s.val) * 1024 + k.val = r.val * 1024 + k.val
  rw [hr]

/-! ## The weight operand -/

/-- The region finds the folded weight, transposed and rounded to bf16. -/
theorem entry_weight (c : Dev nD) :
    V m c main_v6 = truncf .bf16 (transpose S1024x1024 [1, 0]
      (addf (argW m c)
        (mulf (broadcastInDim S1024x1024 ![] bcast_S_S1024x1024 (constant (F := Ideal) S_ .f32 0x40000000#32))
          (Host.dotGeneral dot_S1024x16_S16x1024_S1024x1024_1_0_0_1_n_n none (argB m c) (argA m c))))
      transposes_S1024x1024_S1024x1024_1_0) bitsLt_bf16_f32 := by
  show StableHlo.after hostOps0 (fun b => m (c, b)) (Proc.devRef .tc main_v6) = _
  after_results <;> rfl

/-- At `(d, o)` it is `W[o, d] + t · ∑ r, B[o, r] · A[r, d]`, `t` the word of `2.0`. -/
theorem entry_weight_apply (c : Dev nD) (d o : Fin 1024) :
    V m c main_v6 (ix2 d o) = argW m c (ix2 o d)
      + Ideal.ofBits .f32 0x40000000#32 * ∑ r : Fin 16, argB m c (ix2 o r) * argA m c (ix2 r d) := by
  rw [entry_weight, truncf_apply, transpose_ix2_apply, addf_apply, mulf_apply, product_BA_apply]
  rfl

/-! ## The bias operand -/

/-- The region finds `b` as one row. -/
theorem entry_bias (c : Dev nD) :
    V m c main_v7 = shapeCast S1x1024 (argBias m c) shapeCasts_S1024_S1x1024 := by
  show StableHlo.after hostOps0 (fun b => m (c, b)) (Proc.devRef .tc main_v7) = _
  after_results <;> rfl

/-- Its one row at `o` is `b[o]`. -/
theorem entry_bias_apply (c : Dev nD) (u : Fin 1) (o : Fin 1024) :
    V m c main_v7 (ix2 u o) = argBias m c (ix1 o) := by
  rw [entry_bias]
  exact shapeCast_a_1a_apply _ _ u o

end Cert.LowRankFold.Kernel

end
-- ==== Proof.KernelPayload.lean ====
/-
  The kernel body's arithmetic at one entry of its output block. The body multiplies the block of `x` rows (rounded
  to bf16, which is the identity on the extended reals) by the whole transposed weight into a zero accumulator and
  adds the bias row broadcast down the rows: at `(p, q)` that is `∑ k, x0[p,k] · x1[k,q] + x2[0,q]`.
-/
import proofs.«171128_j70360154243567_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LowRankFold.Kernel

open Cert.KernelIdeal Cert.KernelIdeal.Gen
open Idealize.ShloMosaic Idealize.ShloMosaic.ValueIdx

/-- The body's product keeps the row: the left operand's first coordinate is the output's. -/
theorem lhs_body_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's second coordinate is the contraction index. -/
theorem lhs_body_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's first coordinate is the contraction index. -/
theorem rhs_body_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's second coordinate is the output's column. -/
theorem rhs_body_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's matrix product into the zero accumulator, at `(p, q)`: the sum over `k` of row `p` of the left
    operand against column `q` of the right. -/
theorem body_matmul_apply (l : FVec Ideal S1024x1024 .bf16) (r : FVec Ideal S1024x1024 .bf16) (p q : Fin 1024) :
    matmul dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_body_0 _ _
    | ⟨1, _⟩ => exact (lhs_body_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_body_0 _ _).trans hk
    | ⟨1, _⟩ => exact rhs_body_1 _ _)
  rw [el, er]

/-- The body's payload at `(p, q)`: row `p` of the `x` block against column `q` of the weight block, plus the bias
    row at `q`. -/
theorem payload_apply (x0 : Vec Ideal S1024x1024 .f32) (x1 : Vec Ideal S1024x1024 .bf16) (x2 : Vec Ideal S1x1024 .f32) (p q : Fin 1024) :
    k0_pay1 (F := Ideal) x0 x1 x2 (ix2 p q) = (∑ k : Fin 1024, x0 (ix2 p k) * x1 (ix2 k q)) + x2 (ix2 (0 : Fin 1) q) := by
  unfold k0_pay1
  simp only [shapeCast_self]
  rw [addf_apply, body_matmul_apply, broadcastTo_1b_ab_apply]
  rfl

end Cert.LowRankFold.Kernel

end
-- ==== Proof.KernelArray.lean ====
/-
  From blocks to the array. The region has 16 grid points; point `t` reads rows `1024 t … 1024 t + 1023` of the rows
  operand, the whole weight operand and the whole bias row, and writes rows `1024 t … 1024 t + 1023` of the output.
  What it writes is the body's payload of those blocks, so entry `(r, q)` of the output array after the run is
  `∑ k, X[r,k] · Wt[k,q] + b2[0,q]` of the arrays the region found, and the 16 row blocks cover the array.
-/
import proofs.«171128_j70360154243567_1_alg».proof.Proof.Gen.KernelIdeal.Frame
import proofs.«171128_j70360154243567_1_alg».proof.Proof.KernelPayload
import Idealize.ShloMosaic.Lib.Pipeline.Value
import Idealize.ShloMosaic.Lib.ValueIdx

set_option maxRecDepth 16384

noncomputable section

open scoped BigOperators

namespace Cert.LowRankFold.Kernel

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Entry `(r, q)` of the region's output: row `r` of the rows operand against column `q` of the weight operand,
    plus the bias row at `q`. -/
def rowsAt (X : S16384x1024.Idx → EReal) (Wt : S1024x1024.Idx → EReal) (b2 : S1x1024.Idx → EReal) (r : Fin 16384) (q : Fin 1024) : EReal :=
  (∑ k : Fin 1024, X (ix2 r k) * Wt (ix2 k q)) + b2 (ix2 (0 : Fin 1) q)

/-- The region's output array as one function of the arrays it found. -/
def rowsOut (X : S16384x1024.Idx → EReal) (Wt : S1024x1024.Idx → EReal) (b2 : S1x1024.Idx → EReal) : S16384x1024.Idx → EReal :=
  fun i => rowsAt X Wt b2 ⟨(i 0).val, (i 0).isLt⟩ ⟨(i 1).val, (i 1).isLt⟩

theorem zero_offsets : (![0, 0] : Fin 2 → Nat) = fun _ => 0 := funext fun a => by fin_cases a <;> rfl

/-- The printed index maps, decided over the 16 points: the rows operand and the output are at row block `t`, the
    weight and the bias always at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row block of the output is some point's. -/
theorem block_onto : ∀ q : Fin 16, ∃ t : Fin cfg0.N, win0_3.index t = ![q.val, 0] :=
  (by decide +kernel : ∀ q : Fin 16, ∃ t : Fin grid0.N, win0_3.index t = ![q.val, 0])

/-- Point `t`'s block of the rows operand at `(p, k)` is the operand at row `1024 t + p`. -/
theorem read_rows (c : Dev nD) (t : Fin cfg0.N) (p k : Fin 1024) (r : Fin 16384) (hr : r.val = t.val * 1024 + p.val) :
    iblk m c 0 t (ix2 p k) = V m c main_v0 (ix2 r k) := by
  obtain ⟨e00, e01, -⟩ := block_indices t
  show V m c main_v0 (((cfg0.win 0).blk t).view.emb (ix2 p k)) = V m c main_v0 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Every point's block of the weight operand is the whole operand. -/
theorem read_weight (c : Dev nD) (t : Fin cfg0.N) (k q : Fin 1024) :
    iblk m c 1 t (ix2 k q) = V m c main_v6 (ix2 k q) := by
  obtain ⟨-, -, e10, e11, -⟩ := block_indices t
  show V m c main_v6 (((cfg0.win 1).blk t).view.emb (ix2 k q)) = V m c main_v6 (ix2 k q)
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

/-- Every point's block of the bias operand is the whole row. -/
theorem read_bias (c : Dev nD) (t : Fin cfg0.N) (u : Fin 1) (q : Fin 1024) :
    iblk m c 2 t (ix2 u q) = V m c main_v7 (ix2 u q) := by
  obtain ⟨-, -, -, -, e20, e21, -⟩ := block_indices t
  show V m c main_v7 (((cfg0.win 2).blk t).view.emb (ix2 u q)) = V m c main_v7 (ix2 u q)
  refine congrArg _ (funext fun a => Fin.ext ?_)
  match a with
  | ⟨0, _⟩ => show win0_2.index t (0 : Fin 2) * 1 + 1 * u.val = u.val; omega
  | ⟨1, _⟩ => show win0_2.index t (1 : Fin 2) * 1024 + 1 * q.val = q.val; omega

/-- Index `j` of point `t`'s output block sits at row `1024 t + j₀`, column `j₁` of the output array. -/
theorem out_position (t : Fin cfg0.N) (j : ((cfg0.win 3).xblock (grid0.coords t)).Idx) (r : Fin 16384) (q : Fin 1024)
    (hr : r.val = t.val * 1024 + (j 0).val) (hq : q.val = (j 1).val) :
    ((cfg0.win 3).blk t).view.emb j = ix2 r q := by
  obtain ⟨-, -, -, -, -, -, e30, e31⟩ := block_indices t
  funext a; apply Fin.ext
  match a with
  | ⟨0, _⟩ => show win0_3.index t (0 : Fin 2) * 1024 + 1 * (j 0).val = r.val; omega
  | ⟨1, _⟩ => show win0_3.index t (1 : Fin 2) * 1024 + 1 * (j 1).val = q.val; omega

/-- What point `t` writes back is block `t` of `rowsOut` of the arrays the region found. -/
theorem flushed_eq (c : Dev nD) (t : Fin cfg0.N) :
    (dats m 0 c).flushed 3 t
      = ((cfg0.win 3).blk t).view.read (Elt Ideal) (rowsOut (V m c main_v0) (V m c main_v6) (V m c main_v7)) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S1x1024) zero_offsets]
  funext j
  have hj0 : (j 0).val < 1024 := (j 0).isLt
  have hj1 : (j 1).val < 1024 := (j 1).isLt
  have ht : t.val < 16 := lt_of_lt_of_eq t.isLt N_0
  have hx : (cfg0.win 3).xinj (grid0.coords t) j = ix2 (⟨(j 0).val, hj0⟩ : Fin 1024) (⟨(j 1).val, hj1⟩ : Fin 1024) :=
    funext fun a => by match a with | ⟨0, _⟩ => rfl | ⟨1, _⟩ => rfl
  show k0_pay1 (F := Ideal) (iblk m c 0 t) (iblk m c 1 t) (iblk m c 2 t) ((cfg0.win 3).xinj (grid0.coords t) j)
    = rowsOut (V m c main_v0) (V m c main_v6) (V m c main_v7) (((cfg0.win 3).blk t).view.emb j)
  rw [hx, out_position t j ⟨t.val * 1024 + (j 0).val, by omega⟩ ⟨(j 1).val, hj1⟩ rfl rfl]
  refine (payload_apply (iblk m c 0 t) (iblk m c 1 t) (iblk m c 2 t) ⟨(j 0).val, hj0⟩ ⟨(j 1).val, hj1⟩).trans ?_
  show _ = rowsAt (V m c main_v0) (V m c main_v6) (V m c main_v7) ⟨t.val * 1024 + (j 0).val, by omega⟩ ⟨(j 1).val, hj1⟩
  unfold rowsAt
  rw [read_bias m c t 0 ⟨(j 1).val, hj1⟩]
  refine congrArg (· + _) (Finset.sum_congr rfl fun k _ => ?_)
  rw [read_rows m c t ⟨(j 0).val, hj0⟩ k ⟨t.val * 1024 + (j 0).val, by omega⟩ rfl, read_weight m c t k ⟨(j 1).val, hj1⟩]

/-- An index of the output array is in point `t`'s block iff each coordinate is in the block's range. -/
theorem mem_block (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- The 16 row blocks cover the output array: row `r` is in block `r / 1024`. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := block_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run is `rowsOut` of the arrays the region found. -/
theorem array_after (c : Dev nD) :
    (dats m 0 c).arrAt 3 cfg0.N = rowsOut (V m c main_v0) (V m c main_v6) (V m c main_v7) :=
  (dats m 0 c).arrAt_eq_of_cover 3 _ (fun t _ => flushed_eq m c t) covered

end Cert.LowRankFold.Kernel

end
-- ==== Proof.FoldLaw.lean ====
/-
  The algebra that joins the two programs. One output entry of the kernel is a row of `x` against a column of
  the folded weight `W + t · (B · A)`, plus the bias; the same entry of the reference is the base product plus the
  bias, plus `t` times the two-step low-rank product `(x · Aᵀ) · Bᵀ`. Over the reals the two agree by distributing
  the row over the sum `W + t · (B · A)` and exchanging the sum over the rank index with the sum over the input
  index. On the extended reals distributivity fails at the infinities, so the law is stated for entries that are
  real numbers, which is what the precondition provides.
-/
import Idealize.ShloMosaic.PureOps.Ideal

noncomputable section

open scoped BigOperators

namespace Cert.LowRankFold

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Exchanging the two sums: the low-rank product taken in two steps, `∑ r, (∑ d, x d · a r d) · b r`, is the row
    `x` against the column `∑ r, b r · a r d` of the product matrix. -/
theorem two_step_eq_product {D R : Type*} [Fintype D] [Fintype R] (x : D → ℝ) (a : R → D → ℝ) (b : R → ℝ) :
    ∑ r, (∑ d, x d * a r d) * b r = ∑ d, x d * ∑ r, b r * a r d := by
  simp only [Finset.sum_mul, Finset.mul_sum]
  rw [Finset.sum_comm]
  exact Finset.sum_congr rfl fun d _ => Finset.sum_congr rfl fun r _ => by ring

/-- The law over the reals: a row against the folded weight, plus the bias, is the base row product plus the bias
    plus `t` times the two-step low-rank product. -/
theorem fold_real {D R : Type*} [Fintype D] [Fintype R] (x w : D → ℝ) (bias t : ℝ) (a : R → D → ℝ) (b : R → ℝ) :
    (∑ d, x d * (w d + t * ∑ r, b r * a r d)) + bias
      = ((∑ d, x d * w d) + bias) + t * ∑ r, (∑ d, x d * a r d) * b r := by
  rw [two_step_eq_product, Finset.mul_sum]
  have h : ∀ d, x d * (w d + t * ∑ r, b r * a r d) = x d * w d + t * (x d * ∑ r, b r * a r d) := fun d => by ring
  simp only [h, Finset.sum_add_distrib]
  ring

/-- The same law on the extended reals, for entries that are real numbers. -/
theorem fold_ereal {D R : Type*} [Fintype D] [Fintype R] (x w : D → ℝ) (bias t : ℝ) (a : R → D → ℝ) (b : R → ℝ) :
    (∑ d, (x d : EReal) * ((w d : EReal) + (t : EReal) * ∑ r, (b r : EReal) * (a r d : EReal))) + (bias : EReal)
      = ((∑ d, (x d : EReal) * (w d : EReal)) + (bias : EReal))
        + (t : EReal) * ∑ r, (∑ d, (x d : EReal) * (a r d : EReal)) * (b r : EReal) := by
  simp only [← EReal.coe_mul, ← coe_sum, ← EReal.coe_add]
  exact congrArg _ (fold_real x w bias t a b)

end Cert.LowRankFold

end
-- ==== Proof.Spec.lean ====
/-
  What the two programs compute, index by index, on the extended reals. The arguments are `x : [4, 4096, 1024]`,
  `W : [1024, 1024]` (output feature by input feature), `b : [1024]`, `A : [16, 1024]` and `B : [1024, 16]`, and a
  scale `t`. At batch `p`, position `s` and output feature `o`:
  the FOLDED arrangement is `∑ d, x[p,s,d] · (W[o,d] + t · ∑ r, B[o,r] · A[r,d]) + b[o]` (one product against the
  folded weight), and the TWO-STEP arrangement is
  `(∑ d, x[p,s,d] · W[o,d] + b[o]) + t · ∑ r, (∑ d, x[p,s,d] · A[r,d]) · B[o,r]`.
  They agree when every entry is a real number (FoldLaw). The scale both programs spell is the word of `2.0`.
-/
import proofs.«171128_j70360154243567_1_alg».proof.Proof.FoldLaw
import Idealize.ShloMosaic.Lib.ValueIdx

noncomputable section

open scoped BigOperators

namespace Cert.LowRankFold

open Idealize.ShloMosaic Idealize.ShloMosaic.ValueIdx

abbrev Sx : Shape := ⟨3, ![4, 4096, 1024]⟩
abbrev Sw : Shape := ⟨2, ![1024, 1024]⟩
abbrev Sb : Shape := ⟨1, ![1024]⟩
abbrev Sa : Shape := ⟨2, ![16, 1024]⟩
abbrev Sbm : Shape := ⟨2, ![1024, 16]⟩

/-- The folded arrangement at `(p, s, o)`: the row `x[p,s,·]` against column `o` of the folded weight, plus the bias. -/
def foldedAt (x : Sx.Idx → EReal) (W : Sw.Idx → EReal) (b : Sb.Idx → EReal) (A : Sa.Idx → EReal) (B : Sbm.Idx → EReal) (t : EReal)
    (p : Fin 4) (s : Fin 4096) (o : Fin 1024) : EReal :=
  (∑ d : Fin 1024, x (ix3 p s d) * (W (ix2 o d) + t * ∑ r : Fin 16, B (ix2 o r) * A (ix2 r d))) + b (ix1 o)

/-- The two-step arrangement at `(p, s, o)`: the base product plus the bias, plus `t` times the low-rank update. -/
def twoStepAt (x : Sx.Idx → EReal) (W : Sw.Idx → EReal) (b : Sb.Idx → EReal) (A : Sa.Idx → EReal) (B : Sbm.Idx → EReal) (t : EReal)
    (p : Fin 4) (s : Fin 4096) (o : Fin 1024) : EReal :=
  ((∑ d : Fin 1024, x (ix3 p s d) * W (ix2 o d)) + b (ix1 o))
    + t * ∑ r : Fin 16, (∑ d : Fin 1024, x (ix3 p s d) * A (ix2 r d)) * B (ix2 o r)

/-- The result array both programs end with: the two-step arrangement at every index. -/
def twoStepOut (x : Sx.Idx → EReal) (W : Sw.Idx → EReal) (b : Sb.Idx → EReal) (A : Sa.Idx → EReal) (B : Sbm.Idx → EReal) (t : EReal) :
    Sx.Idx → EReal :=
  fun i => twoStepAt x W b A B t (i 0) (i 1) (i 2)

/-- With real entries and a real scale the folded arrangement is the two-step one. -/
theorem foldedAt_eq_twoStepAt (x : Sx.Idx → EReal) (W : Sw.Idx → EReal) (b : Sb.Idx → EReal) (A : Sa.Idx → EReal) (B : Sbm.Idx → EReal) (t : EReal)
    (hx : ∀ i, ∃ r : ℝ, x i = (r : EReal)) (hW : ∀ i, ∃ r : ℝ, W i = (r : EReal)) (hb : ∀ i, ∃ r : ℝ, b i = (r : EReal))
    (hA : ∀ i, ∃ r : ℝ, A i = (r : EReal)) (hB : ∀ i, ∃ r : ℝ, B i = (r : EReal)) (ht : ∃ r : ℝ, t = (r : EReal))
    (p : Fin 4) (s : Fin 4096) (o : Fin 1024) :
    foldedAt x W b A B t p s o = twoStepAt x W b A B t p s o := by
  choose xr hxr using hx
  choose wr hwr using hW
  choose br hbr using hb
  choose ar har using hA
  choose bmr hbmr using hB
  obtain ⟨tr, rfl⟩ := ht
  unfold foldedAt twoStepAt
  simp only [hxr, hwr, hbr, har, hbmr]
  exact fold_ereal (fun d => xr (ix3 p s d)) (fun d => wr (ix2 o d)) (br (ix1 o)) tr (fun r d => ar (ix2 r d)) (fun r => bmr (ix2 o r))

/-- The word of `2.0` denotes the real number `2`. -/
theorem ofBits_two : Ideal.ofBits .f32 0x40000000#32 = ((2 : ℝ) : EReal) := by
  simp [Ideal.ofBits, Ideal.ieee, -EReal.coe_mul]; norm_num

/-- The word of `+∞` denotes the top of the extended reals. -/
theorem ofBits_inf : Ideal.ofBits .f32 0x7F800000#32 = ⊤ := by
  simp [Ideal.ofBits, Ideal.ieee]

end Cert.LowRankFold

end
-- ==== Proof.FiniteInputs.lean ====
/-
  What the precondition gives. It states, for each of the five arguments, that every entry's absolute value is
  below `+∞`; on the extended reals that excludes both infinities, so every entry is a real number. This is the
  hypothesis the fold law needs.
-/
import proofs.«171128_j70360154243567_1_alg».proof.Pre_finite_inputs
import proofs.«171128_j70360154243567_1_alg».proof.Proof.Spec
import Idealize.ShloMosaic.Lib.ReduceAll

noncomputable section

namespace Cert.LowRankFold

open Idealize.ShloMosaic Idealize.ShloMosaic.ValueIdx

/-- The scalar shape has one index. -/
instance subsingleton_scalar_idx : Subsingleton Cert.Pre_finite_inputs.S_.Idx := ⟨fun a b => funext fun d => d.elim0⟩

/-- An extended real whose absolute value `max x (-x)` compares below `+∞` is a real number: at either infinity the
    absolute value is `⊤`, which is not below `⊤`. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Under the precondition every entry of every argument is a real number. -/
theorem entries_real [Cert.Pre_finite_inputs.Facts]
    (x : FVec Ideal Cert.Pre_finite_inputs.S4x4096x1024 .f32) (W : FVec Ideal Cert.Pre_finite_inputs.S1024x1024 .f32)
    (b : FVec Ideal Cert.Pre_finite_inputs.S1024 .f32) (A : FVec Ideal Cert.Pre_finite_inputs.S16x1024 .f32)
    (B : FVec Ideal Cert.Pre_finite_inputs.S1024x16 .f32)
    (h : Cert.Pre_finite_inputs.fn (F := Ideal) x W b A B = fun _ => 1#1) :
    (∀ i, ∃ r : ℝ, x i = (r : EReal)) ∧ (∀ i, ∃ r : ℝ, W i = (r : EReal)) ∧ (∀ i, ∃ r : ℝ, b i = (r : EReal))
      ∧ (∀ i, ∃ r : ℝ, A i = (r : EReal)) ∧ (∀ i, ∃ r : ℝ, B i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hx, h1⟩ := IntOp.andi_eq_one.1 h01
  exact ⟨fun i => real_of_abs_lt_top _ (Host.reduce_andi_all _ _ _ _ _ hx i),
    fun i => real_of_abs_lt_top _ (Host.reduce_andi_all _ _ _ _ _ h1 i),
    fun i => real_of_abs_lt_top _ (Host.reduce_andi_all _ _ _ _ _ h2 i),
    fun i => real_of_abs_lt_top _ (Host.reduce_andi_all _ _ _ _ _ h3 i),
    fun i => real_of_abs_lt_top _ (Host.reduce_andi_all _ _ _ _ _ h4 i)⟩

end Cert.LowRankFold

end
-- ==== Proof.KernelResult.lean ====
/-
  The kernel's result. After the region the host reshapes the [16384, 1024] output back to [4, 4096, 1024]: the result
  at `(p, s, o)` is the output array at row `p · 4096 + s`, column `o`. Unfolding that entry through the arrays the
  region found gives the folded arrangement of the launched arguments, which, their entries being real numbers under
  the precondition, is the two-step arrangement. The run of the idealized kernel is then restated with its result named.
-/
import proofs.«171128_j70360154243567_1_alg».proof.Defs
import proofs.«171128_j70360154243567_1_alg».proof.Proof.Gen.Pre_finite_inputs
import proofs.«171128_j70360154243567_1_alg».proof.Proof.KernelEntry
import proofs.«171128_j70360154243567_1_alg».proof.Proof.KernelArray
import proofs.«171128_j70360154243567_1_alg».proof.Proof.Spec
import proofs.«171128_j70360154243567_1_alg».proof.Proof.FiniteInputs

set_option maxRecDepth 16384

noncomputable section

open scoped BigOperators

namespace Cert.LowRankFold.Kernel

open Cert.KernelIdeal Cert.KernelIdeal.Gen Cert.LowRankFold
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ)

/-- The result at `(p, s, o)` is the region's output array at row `r = p · 4096 + s`, column `o`: the closing reshape
    keeps the row-major position, and the region's output buffer holds the array the run computed. -/
theorem result_apply (c : Dev nD) (p : Fin 4) (s : Fin 4096) (o : Fin 1024) (r : Fin 16384) (hr : r.val = p.val * 4096 + s.val) :
    Pipeline.afterTail₀ cfgs (dats m) 0 (V0 m) [hostOps1] c main_v9 (ix3 p s o) = (dats m 0 c).arrAt 3 cfg0.N (ix2 r o) := by
  have e : Pipeline.afterTail₀ cfgs (dats m) 0 (V0 m) [hostOps1] c main_v9
      = shapeCast S4x4096x1024
          (Pipeline.withArrays (cfgs 0).spec c (V0 m c) (fun w => (dats m 0 c).arrAt w (cfgs 0).N) (Proc.devRef .tc main_v8) : S16384x1024.Idx → EReal)
          shapeCasts_S16384x1024_S4x4096x1024 := by
    unfold Pipeline.afterTail₀
    show StableHlo.after hostOps1 _ (Proc.devRef .tc main_v9) = _
    after_results <;> rfl
  rw [e]
  refine (shapeCast_apply _ _ _ (ix2 r o) ?_).trans ?_
  · rw [Shape.rowMajor_val_two, Shape.rowMajor_val_three]
    show r.val * 1024 + o.val = (p.val * 4096 + s.val) * 1024 + o.val
    rw [hr]
  · exact congrFun (Pipeline.withArrays_arr spec0 launch0.win.arr_inj c _ _ 3) (ix2 r o)

/-- The result array is the two-step arrangement of the launched arguments, when their entries are real numbers. -/
theorem result_eq (c : Dev nD)
    (hx : ∀ i, ∃ r : ℝ, argX m c i = (r : EReal)) (hW : ∀ i, ∃ r : ℝ, argW m c i = (r : EReal))
    (hb : ∀ i, ∃ r : ℝ, argBias m c i = (r : EReal)) (hA : ∀ i, ∃ r : ℝ, argA m c i = (r : EReal))
    (hB : ∀ i, ∃ r : ℝ, argB m c i = (r : EReal)) :
    Pipeline.afterTail₀ cfgs (dats m) 0 (V0 m) [hostOps1] c main_v9
      = twoStepOut (argX m c) (argW m c) (argBias m c) (argA m c) (argB m c) (Ideal.ofBits .f32 0x40000000#32) := by
  funext i
  obtain ⟨p, s, o, rfl⟩ : ∃ (p : Fin 4) (s : Fin 4096) (o : Fin 1024), i = ix3 p s o := ⟨i 0, i 1, i 2, eq_ix3 i⟩
  have hp : p.val < 4 := p.isLt
  have hs : s.val < 4096 := s.isLt
  have hr : p.val * 4096 + s.val < 16384 := by omega
  rw [result_apply m c p s o ⟨p.val * 4096 + s.val, hr⟩ rfl, array_after]
  show rowsAt (V m c main_v0) (V m c main_v6) (V m c main_v7) ⟨p.val * 4096 + s.val, hr⟩ o
    = twoStepAt (argX m c) (argW m c) (argBias m c) (argA m c) (argB m c) (Ideal.ofBits .f32 0x40000000#32) p s o
  rw [← foldedAt_eq_twoStepAt (argX m c) (argW m c) (argBias m c) (argA m c) (argB m c) (Ideal.ofBits .f32 0x40000000#32)
    hx hW hb hA hB ⟨2, ofBits_two⟩ p s o]
  unfold rowsAt foldedAt
  rw [entry_bias_apply]
  refine congrArg (· + _) (Finset.sum_congr rfl fun k _ => ?_)
  rw [entry_rows_apply m c p s k ⟨p.val * 4096 + s.val, hr⟩ rfl, entry_weight_apply]

/-- The run of the idealized kernel with its result named: under the precondition every weakly fair execution ends
    with the result array at the two-step arrangement of the launched arguments, and the arguments unchanged. -/
theorem run (ρ : Dev nD → PrngReg) (hpre : Cert.Pre_KernelIdeal m) :
    θ_run defs (onTc (τ := τ) (main (F := Ideal))) ⟨m, fun _ => 0, ρ⟩ (fun r => ∀ c : Dev nD,
      r.2.mem ((c.tc : Thread nD τ).loc main_v9)
        = twoStepOut (argX m c) (argW m c) (argBias m c) (argA m c) (argB m c) (Ideal.ofBits .f32 0x40000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
      obtain ⟨hx, hW, hb, hA, hB⟩ := entries_real (argX m c) (argW m c) (argBias m c) (argA m c) (argB m c) (hpre c)
      exact ⟨((h c).2 main_v9 (Pipeline.mem_restRefs_of main_v9 (by decide) (by decide))).trans (result_eq m c hx hW hb hA hB),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.LowRankFold.Kernel

end
-- ==== Proof.ReferenceValue.lean ====
/-
  The reference, read index by index. Its result at `(p, s, o)` is the base product `∑ d, x[p,s,d] · W[o,d]` plus the
  bias `b[o]` (broadcast along the two leading axes), plus the word of `2.0` times the low-rank update
  `∑ r, (∑ d, x[p,s,d] · A[r,d]) · B[o,r]`: the two-step arrangement of the specification.
-/
import proofs.«171128_j70360154243567_1_alg».proof.Proof.Gen.ReferenceIdeal.Read
import proofs.«171128_j70360154243567_1_alg».proof.Proof.Spec

noncomputable section

open scoped BigOperators

namespace Cert.LowRankFold.Reference

open Cert.ReferenceIdeal Cert.ReferenceIdeal.Gen Cert.ReferenceIdeal.Read
open Idealize.ShloMosaic Idealize.ShloMosaic.ValueIdx Cert.LowRankFold

/-- The base product's left operand at `(p, s, o)` and contraction index `k` is `x[p, s, k]`. -/
theorem lidx_v0 (p : Fin 4) (s : Fin 4096) (o : Fin 1024) (k : Fin 1024) : lidx_main_v0 (ix3 p s o) k = ix3 p s k :=
  funext fun a => Fin.ext (by match a with | ⟨0, _⟩ => rfl | ⟨1, _⟩ => rfl | ⟨2, _⟩ => rfl)
/-- Its right operand is `W[o, k]`. -/
theorem ridx_v0 (p : Fin 4) (s : Fin 4096) (o : Fin 1024) (k : Fin 1024) : ridx_main_v0 (ix3 p s o) k = ix2 o k :=
  funext fun a => Fin.ext (by match a with | ⟨0, _⟩ => rfl | ⟨1, _⟩ => rfl)
/-- The bias, broadcast in two steps, is read at `o`. -/
theorem idx_bias (p : Fin 4) (s : Fin 4096) (o : Fin 1024) : idx_main_v1 (idx_main_v2 (ix3 p s o)) = ix1 o :=
  funext fun a => Fin.ext (by match a with | ⟨0, _⟩ => rfl)
/-- The update's left operand at `(p, s, o)` and rank index `r` is the projection at `(p, s, r)`. -/
theorem lidx_v5 (p : Fin 4) (s : Fin 4096) (o : Fin 1024) (r : Fin 16) : lidx_main_v5 (ix3 p s o) r = ix3 p s r :=
  funext fun a => Fin.ext (by match a with | ⟨0, _⟩ => rfl | ⟨1, _⟩ => rfl | ⟨2, _⟩ => rfl)
/-- Its right operand is `B[o, r]`. -/
theorem ridx_v5 (p : Fin 4) (s : Fin 4096) (o : Fin 1024) (r : Fin 16) : ridx_main_v5 (ix3 p s o) r = ix2 o r :=
  funext fun a => Fin.ext (by match a with | ⟨0, _⟩ => rfl | ⟨1, _⟩ => rfl)
/-- The projection's left operand at `(p, s, r)` and contraction index `k` is `x[p, s, k]`. -/
theorem lidx_v4 (p : Fin 4) (s : Fin 4096) (r : Fin 16) (k : Fin 1024) : lidx_main_v4 (ix3 p s r) k = ix3 p s k :=
  funext fun a => Fin.ext (by match a with | ⟨0, _⟩ => rfl | ⟨1, _⟩ => rfl | ⟨2, _⟩ => rfl)
/-- Its right operand is `A[r, k]`. -/
theorem ridx_v4 (p : Fin 4) (s : Fin 4096) (r : Fin 16) (k : Fin 1024) : ridx_main_v4 (ix3 p s r) k = ix2 r k :=
  funext fun a => Fin.ext (by match a with | ⟨0, _⟩ => rfl | ⟨1, _⟩ => rfl)

/-- The reference's result is the two-step arrangement of its arguments, with the scale the word of `2.0`. -/
theorem result_eq (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S16x1024, .f32⟩ : BufTy).Contents (Elt Ideal))
    (x4 : (⟨S1024x16, .f32⟩ : BufTy).Contents (Elt Ideal)) :
    val_main_v8 (F := Ideal) x0 x1 x2 x3 x4 = twoStepOut x0 x1 x2 x3 x4 (Ideal.ofBits .f32 0x40000000#32) := by
  funext i
  obtain ⟨p, s, o, rfl⟩ : ∃ (p : Fin 4) (s : Fin 4096) (o : Fin 1024), i = ix3 p s o := ⟨i 0, i 1, i 2, eq_ix3 i⟩
  rw [val_main_v8_apply, val_main_v3_apply, val_main_v0_apply, val_main_v2_apply, val_main_v1_apply, val_main_v7_apply,
    val_main_v6_apply, val_main_cst_apply, val_main_v5_apply]
  simp only [val_main_v4_apply, lidx_v0, ridx_v0, idx_bias, lidx_v5, ridx_v5, lidx_v4, ridx_v4]
  rfl

end Cert.LowRankFold.Reference

end
-- ==== Proof.lean ====
/-
  A low-rank-adapted linear layer: `out = x · Wᵀ + b + 2 · (x · Aᵀ) · Bᵀ` over `x : [4, 4096, 1024]`,
  `W : [1024, 1024]`, `b : [1024]`, `A : [16, 1024]`, `B : [1024, 16]`.
  The reference computes it in that order: three matrix products, the bias broadcast, a scaling by `2` and two sums.
  The kernel first folds the low-rank pair into the weight, `W + 2 · (B · A)`, transposes it, and then computes ONE
  product of the [16384, 1024] rows of `x` against it, 1024 rows per grid point, adding the bias row.
  On the extended reals both are, at batch `p`, position `s` and output feature `o`,
    `∑ d, x[p,s,d] · W[o,d] + b[o] + 2 · ∑ r, (∑ d, x[p,s,d] · A[r,d]) · B[o,r]`:
  the kernel's `∑ d, x[p,s,d] · (W[o,d] + 2 · ∑ r, B[o,r] · A[r,d]) + b[o]` distributes over the folded weight and
  the two sums exchange (Proof/FoldLaw.lean). Distributivity needs real entries, which is what the precondition
  (every input finite) gives (Proof/FiniteInputs.lean). Rounding to bf16 is the identity on the extended reals, and
  a matrix product into a zero accumulator is the plain sum.
  The idealization rewrote nothing, so its conjunct is `True`; the three frames are the programs' runs.
-/
import proofs.«171128_j70360154243567_1_alg».proof.Defs
import proofs.«171128_j70360154243567_1_alg».proof.Proof.Gen.Kernel
import proofs.«171128_j70360154243567_1_alg».proof.Proof.Gen.Kernel.Skeleton
import proofs.«171128_j70360154243567_1_alg».proof.Proof.Gen.Kernel.Launch
import proofs.«171128_j70360154243567_1_alg».proof.Proof.Gen.Kernel.Points
import proofs.«171128_j70360154243567_1_alg».proof.Proof.Gen.Kernel.Frame
import proofs.«171128_j70360154243567_1_alg».proof.Proof.Gen.KernelIdeal
import proofs.«171128_j70360154243567_1_alg».proof.Proof.Gen.KernelIdeal.Skeleton
import proofs.«171128_j70360154243567_1_alg».proof.Proof.Gen.KernelIdeal.Launch
import proofs.«171128_j70360154243567_1_alg».proof.Proof.Gen.KernelIdeal.Points
import proofs.«171128_j70360154243567_1_alg».proof.Proof.Gen.KernelIdeal.Frame
import proofs.«171128_j70360154243567_1_alg».proof.Proof.Gen.ReferenceIdeal
import proofs.«171128_j70360154243567_1_alg».proof.Proof.Gen.Pre_finite_inputs
import proofs.«171128_j70360154243567_1_alg».proof.Proof.Gen.ReferenceIdeal.Run
import proofs.«171128_j70360154243567_1_alg».proof.Proof.Gen.ReferenceIdeal.Read
import proofs.«171128_j70360154243567_1_alg».proof.Proof.KernelResult
import proofs.«171128_j70360154243567_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the two-step arrangement of the arguments: the kernel by the fold law under the
    precondition, the reference by reading its operations one at a time. -/
theorem algebraic : Cert.algebraic_KernelIdeal_ReferenceIdeal := by
  intro m ρ m' ρ' hpre hagree
  refine ⟨_, Cert.LowRankFold.Kernel.run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (Cert.LowRankFold.Reference.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
